-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : FVec F S256x256 .f32) (main_arg4 : FVec F S256x256 .f32) (main_arg5 : FVec F S256 .f32) (main_arg6 : FVec F S256x128 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S2000x256 : Shape := ⟨2, ![2000, 256]⟩
abbrev S1x256 : Shape := ⟨2, ![1, 256]⟩
abbrev S50000x128 : Shape := ⟨2, ![50000, 128]⟩
abbrev S2000x128 : Shape := ⟨2, ![2000, 128]⟩
abbrev S1x128 : Shape := ⟨2, ![1, 128]⟩

abbrev nBuf : Space → Nat
  | .hbm => 61
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x128 : Shape := ⟨2, ![50000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.RowLinear.lean ====
/-
  One dense layer of a mean-aggregating graph convolution, as a function of whole arrays, index by index: at (row r,
  column j) the layer is (Σₖ x[r,k]·Ws[k,j] + Σₖ h[r,k]·Wn[k,j]) + b[j], where x holds the nodes' own features and h
  their neighbourhood means. Row r of the result reads only row r of x and of h, so the rows may be computed block by
  block. Here: that function, its rectified form, and the readings at an index that bring a host matrix product, a
  bias row broadcast over the rows (both spellings, the host's and the vector unit's) to it.
-/
import Idealize.ShloMosaic.PureOps.Ideal.Laws
import Idealize.ShloMosaic.Lib.ValueLayout
import Idealize.ShloMosaic.Lib.Pipeline.Value
import proofs.«118450_j71236327571567_1_alg».proof.Proof.LibRowOps

noncomputable section

open scoped BigOperators

namespace Cert.RowLinear

open Idealize.ShloMosaic Idealize.ShloMosaic.ValueIdx

variable {R K N : ℕ} {φ₁ φ₂ : FTy} {α : Type}

/-- The layer at an index: the row of `x` against the column of `ws`, plus the row of `h` against the column of
    `wn`, plus the bias at the column. -/
def lin (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  fun i => (∑ k : Fin K, x (ix2 (i 0) k) * ws (ix2 k (i 1)) + ∑ k : Fin K, h (ix2 (i 0) k) * wn (ix2 k (i 1)))
    + b (ix1 (i 1))

/-- The layer followed by the rectifier: the larger of the layer's value and the value of the zero word. -/
def reluLin (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  fun i => max (lin x h ws wn b i) (Ideal.ofBits .f32 0x00000000#32)

theorem lin_ix2 (x h : (⟨2, ![R, K]⟩ : Shape).Idx → EReal) (ws wn : (⟨2, ![K, N]⟩ : Shape).Idx → EReal)
    (b : (⟨1, ![N]⟩ : Shape).Idx → EReal) (r : Fin R) (j : Fin N) :
    lin x h ws wn b (ix2 r j)
      = (∑ k : Fin K, x (ix2 r k) * ws (ix2 k j) + ∑ k : Fin K, h (ix2 r k) * wn (ix2 k j)) + b (ix1 j) := rfl

/-- The host's matrix product (`R × K` by `K × N`, the left operand's columns against the right operand's rows, no
    batch axes) read at `(r, j)`: the sum over `k` of row `r` of the left operand against column `j` of the right. -/
theorem dotGeneral_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    Host.dotGeneral d prec lhs rhs (ix2 r j) = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  show FloatOps.dotGeneral d prec .single lhs rhs (ix2 r j) = _
  rw [Ideal.dotGeneral_apply]
  refine ((contrEquiv1 d K hr hs).symm.sum_comp _).symm.trans (Finset.sum_congr rfl fun k _ => ?_)
  have hL : d.lhsIdx (ix2 r j) ((contrEquiv1 d K hr hs).symm k) = ix2 r k :=
    Cert.RowOps.eq_ix2_of_val _ r k (Cert.RowOps.lhsIdx_row d hln hlb _ _)
      ((d.lhsIdx_val_of_single hlc _ _).trans (contrEquiv1_symm_val d K hr hs k))
  have hR : d.rhsIdx (ix2 r j) ((contrEquiv1 d K hr hs).symm k) = ix2 k j :=
    Cert.RowOps.eq_ix2_of_val _ k j ((d.rhsIdx_val_of_single hrc _ _).trans (contrEquiv1_symm_val d K hr hs k))
      (Cert.RowOps.rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

/-- The host's bias: a vector of `N` column values made a `1 × N` row and that row repeated along `R` rows reads, at
    `(r, j)`, the value at column `j`. -/
theorem hostRowSplat_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (r : Fin R) (j : Fin N) :
    broadcastInDim ⟨2, ![R, N]⟩ ![0, 1] h2 (broadcastInDim ⟨2, ![1, N]⟩ ![1] h1 b) (ix2 r j) = b (ix1 j) := by
  have e2 : broadcastInDim ⟨2, ![R, N]⟩ ![0, 1] h2 (broadcastInDim ⟨2, ![1, N]⟩ ![1] h1 b) (ix2 r j)
      = broadcastInDim ⟨2, ![1, N]⟩ ![1] h1 b (ix2 (0 : Fin 1) j) := by
    refine broadcastInDim_apply _ h2 _ (ix2 r j) (ix2 (0 : Fin 1) j) fun a => ?_
    match a with
    | ⟨0, _⟩ =>
      show (0 : ℕ) = if (1 : ℕ) = 1 then 0 else r.val
      rw [if_pos rfl]
    | ⟨1, _⟩ =>
      show j.val = if N = 1 then 0 else j.val
      split
      · have := j.isLt; omega
      · rfl
  have e1 : broadcastInDim ⟨2, ![1, N]⟩ ![1] h1 b (ix2 (0 : Fin 1) j) = b (ix1 j) := by
    refine broadcastInDim_apply _ h1 b (ix2 (0 : Fin 1) j) (ix1 j) fun a => ?_
    match a with
    | ⟨0, _⟩ =>
      show j.val = if N = 1 then 0 else j.val
      split
      · have := j.isLt; omega
      · rfl
  exact e2.trans e1

/-- The vector unit's bias: the same vector cast to a `1 × N` row and broadcast along `R` rows reads, at `(r, j)`,
    the value at column `j`. -/
theorem vecRowSplat_apply (b : (⟨1, ![N]⟩ : Shape).Idx → α) (hc : (⟨1, ![N]⟩ : Shape).ShapeCasts ⟨2, ![1, N]⟩)
    (hb : (⟨2, ![1, N]⟩ : Shape).Broadcasts ⟨2, ![R, N]⟩) (r : Fin R) (j : Fin N) :
    broadcastTo ⟨2, ![R, N]⟩ (shapeCast ⟨2, ![1, N]⟩ b hc) hb (ix2 r j) = b (ix1 j) := by
  rw [broadcastTo_1b_ab_apply, shapeCast_a_1a_apply]

/-- A block of `B` consecutive rows starting at row `o` of a taller matrix, as a matrix of its own. -/
def rowBlock {B : ℕ} (o : ℕ) (ho : o + B ≤ R) (x : (⟨2, ![R, K]⟩ : Shape).Idx → EReal) :
    (⟨2, ![B, K]⟩ : Shape).Idx → EReal :=
  fun y => x (ix2 ⟨o + (y 0).val, by have := idx2_lt0 y; omega⟩ (y 1))

/-- The layer of a block of rows is the block of the layer: row `p` of the block is row `o + p` of the matrix. -/
theorem lin_rowBlock {B : ℕ} (o : ℕ) (ho : o + B ≤ R) (x h : (⟨2, ![R, K]⟩ : Shape).Idx → EReal)
    (ws wn : (⟨2, ![K, N]⟩ : Shape).Idx → EReal) (b : (⟨1, ![N]⟩ : Shape).Idx → EReal) (p : Fin B) (j : Fin N) :
    lin (rowBlock o ho x) (rowBlock o ho h) ws wn b (ix2 p j)
      = lin x h ws wn b (ix2 ⟨o + p.val, by have := p.isLt; omega⟩ j) := rfl

end Cert.RowLinear

end
-- ==== Proof.KernelPayload.lean ====
/-
  What one grid point of each of the two dense layers stores, read at an index: the vector unit's two matrix products
  into zero accumulators, their sum, the bias row broadcast over the block's rows (and, in the first layer, the
  rectifier) are, at (row p, column q) of the block, the layer function of the five loaded blocks at that index. The
  casts to the narrower float format are the identity on the extended reals.
-/
import proofs.«118450_j71236327571567_1_alg».proof.Proof.Gen.KernelIdeal.Skeleton
import proofs.«118450_j71236327571567_1_alg».proof.Proof.RowLinear

noncomputable section

open scoped BigOperators

namespace Cert.KernelIdeal.Payload

open Cert.KernelIdeal Cert.KernelIdeal.Gen Idealize.ShloMosaic Idealize.ShloMosaic.ValueIdx Cert.RowLinear

/-- The first layer's stored block at `(p, q)`: the rectified layer of the loaded blocks. -/
theorem pay0_apply (v0 v2 : Vec Ideal S2000x256 .f32) (v5 v7 : Vec Ideal S256x256 .f32) (v12 : Vec Ideal S256 .f32)
    (p : Fin 2000) (q : Fin 256) :
    k0_pay1 (F := Ideal) v0 v2 v5 v7 v12 (ix2 p q) = reluLin v0 v2 v5 v7 v12 (ix2 p q) := by
  have e1 := Cert.RowOps.matmul_row_apply dot_S2000x256_S256x256_S2000x256_1_0_0_1_n_n rfl rfl rfl rfl rfl rfl none
    (truncf (F := Ideal) .bf16 v0 bitsLt_bf16_f32) (truncf (F := Ideal) .bf16 v5 bitsLt_bf16_f32) p q
  have e2 := Cert.RowOps.matmul_row_apply dot_S2000x256_S256x256_S2000x256_1_0_0_1_n_n rfl rfl rfl rfl rfl rfl none
    (truncf (F := Ideal) .bf16 v2 bitsLt_bf16_f32) (truncf (F := Ideal) .bf16 v7 bitsLt_bf16_f32) p q
  have e3 := vecRowSplat_apply (R := 2000) v12 shapeCasts_S256_S1x256 broadcasts_S1x256_S2000x256 p q
  unfold k0_pay1
  show max ((_ + _) + _) _ = _
  rw [shapeCast_self]
  exact congrArg₂ max (congrArg₂ (· + ·) (congrArg₂ (· + ·) e1 e2) e3) rfl

/-- The second layer's stored block at `(p, q)`: the layer of the loaded blocks. -/
theorem pay1_apply (v0 v3 : Vec Ideal S2000x256 .f32) (v6 v8 : Vec Ideal S256x128 .f32) (v13 : Vec Ideal S128 .f32)
    (p : Fin 2000) (q : Fin 128) :
    k1_pay1 (F := Ideal) v0 v3 v6 v8 v13 (ix2 p q) = lin v0 v3 v6 v8 v13 (ix2 p q) := by
  have e1 := Cert.RowOps.matmul_row_apply dot_S2000x256_S256x128_S2000x128_1_0_0_1_n_n rfl rfl rfl rfl rfl rfl none
    (truncf (F := Ideal) .bf16 v0 bitsLt_bf16_f32) (truncf (F := Ideal) .bf16 v6 bitsLt_bf16_f32) p q
  have e2 := Cert.RowOps.matmul_row_apply dot_S2000x256_S256x128_S2000x128_1_0_0_1_n_n rfl rfl rfl rfl rfl rfl none
    (truncf (F := Ideal) .bf16 v3 bitsLt_bf16_f32) (truncf (F := Ideal) .bf16 v8 bitsLt_bf16_f32) p q
  have e3 := vecRowSplat_apply (R := 2000) v13 shapeCasts_S128_S1x128 broadcasts_S1x128_S2000x128 p q
  unfold k1_pay1
  show (_ + _) + _ = _
  rw [shapeCast_self, shapeCast_self]
  exact congrArg₂ (· + ·) (congrArg₂ (· + ·) e1 e2) e3

end Cert.KernelIdeal.Payload

end
-- ==== Proof.KernelRegion0.lean ====
/-
  The first dense layer's kernel, from blocks to the array. Grid point t reads rows 2000·t … 2000·t + 1999 of the two
  node-feature arrays, the two whole weight matrices and the whole bias, and writes back the rectified layer of those
  rows as rows 2000·t … 2000·t + 1999 of the result. The layer at row r reads only row r of the two feature arrays, so
  what point t writes back is block t of ONE function of the whole arrays; the 25 blocks tile the 50000 rows, and the
  result array ends holding that function.
-/
import proofs.«118450_j71236327571567_1_alg».proof.Proof.Gen.KernelIdeal.Frame
import proofs.«118450_j71236327571567_1_alg».proof.Proof.KernelPayload

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.RowLinear
open Idealize.ShloMosaic.Pipeline (Dat)

variable (V : (c : Dev nD) → (b : Ref sig .tc) → Buf (Elt Ideal) ((c : Thread nD τ).loc b))

/-- The five arrays the region reads, as it finds them, each by its literal type. -/
abbrev xA (c : Dev nD) : Vec Ideal S50000x256 .f32 := V c main_arg0
abbrev hA (c : Dev nD) : Vec Ideal S50000x256 .f32 := V c main_v18
abbrev wsA (c : Dev nD) : Vec Ideal S256x256 .f32 := V c main_arg3
abbrev wnA (c : Dev nD) : Vec Ideal S256x256 .f32 := V c main_arg4
abbrev bA (c : Dev nD) : Vec Ideal S256 .f32 := V c main_arg5

/-- What the result array ends holding: the rectified layer of the five arrays. -/
abbrev G (c : Dev nD) : Vec Ideal S50000x256 .f32 := reluLin (xA V c) (hA V c) (wsA V c) (wnA V c) (bA V c)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature windows and the result window move down one block of rows per
    point; the weights and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

theorem rows_le (t : Fin cfg0.N) : t.val * 2000 + 2000 ≤ 50000 := by have := t_lt t; omega

/-- Point `t`'s block of the nodes' own features is rows 2000·t onwards of the array. -/
theorem blk_x (c : Dev nD) (t : Fin cfg0.N) :
    (iblk0 V c 0 t : Vec Ideal S2000x256 .f32) = rowBlock (t.val * 2000) (rows_le t) (xA V c) := by
  funext y
  show V c main_arg0 (((cfg0.win 0).blk t).view.emb y) = V c main_arg0 (ix2 ⟨t.val * 2000 + (y 0).val, _⟩ (y 1))
  obtain ⟨e0, e1, -⟩ := idx_facts t
  refine congrArg _ (funext fun a => Fin.ext ?_)
  match a with
  | ⟨0, _⟩ => show win0_0.index t (0 : Fin 2) * 2000 + 1 * (y 0).val = t.val * 2000 + (y 0).val; rw [e0, Nat.one_mul]
  | ⟨1, _⟩ => show win0_0.index t (1 : Fin 2) * 256 + 1 * (y 1).val = (y 1).val; rw [e1, Nat.zero_mul, Nat.zero_add, Nat.one_mul]

/-- Point `t`'s block of the neighbourhood means is rows 2000·t onwards of the array. -/
theorem blk_h (c : Dev nD) (t : Fin cfg0.N) :
    (iblk0 V c 1 t : Vec Ideal S2000x256 .f32) = rowBlock (t.val * 2000) (rows_le t) (hA V c) := by
  funext y
  show V c main_v18 (((cfg0.win 1).blk t).view.emb y) = V c main_v18 (ix2 ⟨t.val * 2000 + (y 0).val, _⟩ (y 1))
  obtain ⟨-, -, e0, e1, -⟩ := idx_facts t
  refine congrArg _ (funext fun a => Fin.ext ?_)
  match a with
  | ⟨0, _⟩ => show win0_1.index t (0 : Fin 2) * 2000 + 1 * (y 0).val = t.val * 2000 + (y 0).val; rw [e0, Nat.one_mul]
  | ⟨1, _⟩ => show win0_1.index t (1 : Fin 2) * 256 + 1 * (y 1).val = (y 1).val; rw [e1, Nat.zero_mul, Nat.zero_add, Nat.one_mul]

/-- Every point's block of the self weights is the whole matrix. -/
theorem blk_ws (c : Dev nD) (t : Fin cfg0.N) : (iblk0 V c 2 t : Vec Ideal S256x256 .f32) = wsA V c := by
  funext y
  show V c main_arg3 (((cfg0.win 2).blk t).view.emb y) = V c main_arg3 y
  obtain ⟨-, -, -, -, e0, e1, -⟩ := idx_facts t
  refine congrArg _ (funext fun a => Fin.ext ?_)
  match a with
  | ⟨0, _⟩ => show win0_2.index t (0 : Fin 2) * 256 + 1 * (y 0).val = (y 0).val; rw [e0, Nat.zero_mul, Nat.zero_add, Nat.one_mul]
  | ⟨1, _⟩ => show win0_2.index t (1 : Fin 2) * 256 + 1 * (y 1).val = (y 1).val; rw [e1, Nat.zero_mul, Nat.zero_add, Nat.one_mul]

/-- Every point's block of the neighbour weights is the whole matrix. -/
theorem blk_wn (c : Dev nD) (t : Fin cfg0.N) : (iblk0 V c 3 t : Vec Ideal S256x256 .f32) = wnA V c := by
  funext y
  show V c main_arg4 (((cfg0.win 3).blk t).view.emb y) = V c main_arg4 y
  obtain ⟨-, -, -, -, -, -, e0, e1, -⟩ := idx_facts t
  refine congrArg _ (funext fun a => Fin.ext ?_)
  match a with
  | ⟨0, _⟩ => show win0_3.index t (0 : Fin 2) * 256 + 1 * (y 0).val = (y 0).val; rw [e0, Nat.zero_mul, Nat.zero_add, Nat.one_mul]
  | ⟨1, _⟩ => show win0_3.index t (1 : Fin 2) * 256 + 1 * (y 1).val = (y 1).val; rw [e1, Nat.zero_mul, Nat.zero_add, Nat.one_mul]

/-- Every point's block of the bias is the whole vector. -/
theorem blk_b (c : Dev nD) (t : Fin cfg0.N) : (iblk0 V c 4 t : Vec Ideal S256 .f32) = bA V c := by
  funext y
  show V c main_arg5 (((cfg0.win 4).blk t).view.emb y) = V c main_arg5 y
  obtain ⟨-, -, -, -, -, -, -, -, e0, -⟩ := idx_facts t
  refine congrArg _ (funext fun a => Fin.ext ?_)
  match a with
  | ⟨0, _⟩ => show win0_4.index t (0 : Fin 1) * 256 + 1 * (y 0).val = (y 0).val; rw [e0, Nat.zero_mul, Nat.zero_add, Nat.one_mul]

/-- What point `t` writes back is block `t` of the rectified layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  rw [blk_x V c t, blk_h V c t, blk_ws V c t, blk_wn V c t, blk_b V c t]
  funext y
  obtain ⟨p, q, rfl⟩ : ∃ (p : Fin 2000) (q : Fin 256), y = ix2 p q := ⟨y 0, y 1, eq_ix2 y⟩
  show k0_pay1 (F := Ideal) (rowBlock (t.val * 2000) (rows_le t) (xA V c)) (rowBlock (t.val * 2000) (rows_le t) (hA V c))
      (wsA V c) (wnA V c) (bA V c) (ix2 p q) = G V c (((cfg0.win 5).blk t).view.emb (ix2 p q))
  rw [Cert.KernelIdeal.Payload.pay0_apply]
  have he : ((cfg0.win 5).blk t).view.emb (ix2 p q) = ix2 ⟨t.val * 2000 + p.val, by have := rows_le t; have := p.isLt; omega⟩ q := by
    obtain ⟨-, -, -, -, -, -, -, -, -, e0, e1⟩ := idx_facts t
    refine funext fun a => Fin.ext ?_
    match a with
    | ⟨0, _⟩ => show win0_5.index t (0 : Fin 2) * 2000 + 1 * p.val = t.val * 2000 + p.val; rw [e0, Nat.one_mul]
    | ⟨1, _⟩ => show win0_5.index t (1 : Fin 2) * 256 + 1 * q.val = q.val; rw [e1, Nat.zero_mul, Nat.zero_add, Nat.one_mul]
  rw [he]
  rfl

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Every row lies in some point's block: row `r` in point `r / 2000`'s. -/
theorem cover (i : S50000x256.Idx) :
    ∃ t : Fin cfg0.N, (cfg0.win 5).flush t = true ∧ i ∈ ((cfg0.win 5).blk t).view.set := by
  have hi0 : (i 0).val < 50000 := idx2_lt0 i
  have hi1 : (i 1).val < 256 := idx2_lt1 i
  let t : Fin cfg0.N := ⟨(i 0).val / 2000, by rw [show cfg0.N = 25 from N_0]; omega⟩
  refine ⟨t, flush0_5 t, ?_⟩
  rw [mem_blk]
  obtain ⟨-, -, -, -, -, -, -, -, -, e0, e1⟩ := idx_facts t
  have ht : t.val = (i 0).val / 2000 := rfl
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE ARRAY after the region: the rectified layer of the arrays the region found. -/
theorem final (c : Dev nD) : (dat0 V c).arrAt 5 cfg0.N = G V c :=
  (dat0 V c).arrAt_eq_of_cover 5 (G V c) (fun t _ => flushed_eq V c t) cover

end Cert.KernelIdeal.Region0

end
-- ==== Proof.KernelRegion1.lean ====
/-
  The second dense layer's kernel, from blocks to the array. Grid point t reads rows 2000·t … 2000·t + 1999 of the
  hidden features and of their neighbourhood means, the two whole 256 × 128 weight matrices and the whole bias, and
  writes back the layer (no rectifier here) of those rows as rows 2000·t … 2000·t + 1999 of the 50000 × 128 result.
  Row r of the layer reads only row r of the two feature arrays, so what point t writes back is block t of ONE
  function of the whole arrays; the 25 blocks tile the rows, and the result array ends holding that function.
-/
import proofs.«118450_j71236327571567_1_alg».proof.Proof.Gen.KernelIdeal.Frame
import proofs.«118450_j71236327571567_1_alg».proof.Proof.KernelPayload

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.RowLinear
open Idealize.ShloMosaic.Pipeline (Dat)

variable (V : (c : Dev nD) → (b : Ref sig .tc) → Buf (Elt Ideal) ((c : Thread nD τ).loc b))

/-- The five arrays the region reads, as it finds them, each by its literal type. -/
abbrev xA (c : Dev nD) : Vec Ideal S50000x256 .f32 := V c main_v19
abbrev hA (c : Dev nD) : Vec Ideal S50000x256 .f32 := V c main_v38
abbrev wsA (c : Dev nD) : Vec Ideal S256x128 .f32 := V c main_arg6
abbrev wnA (c : Dev nD) : Vec Ideal S256x128 .f32 := V c main_arg7
abbrev bA (c : Dev nD) : Vec Ideal S128 .f32 := V c main_arg8

/-- What the result array ends holding: the layer of the five arrays. -/
abbrev G (c : Dev nD) : Vec Ideal S50000x128 .f32 := lin (xA V c) (hA V c) (wsA V c) (wnA V c) (bA V c)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature windows and the result window move down one block of rows per
    point; the weights and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem t_lt (t : Fin cfg1.N) : t.val < 25 := lt_of_lt_of_eq t.isLt N_1

theorem rows_le (t : Fin cfg1.N) : t.val * 2000 + 2000 ≤ 50000 := by have := t_lt t; omega

/-- Point `t`'s block of the hidden features is rows 2000·t onwards of the array. -/
theorem blk_x (c : Dev nD) (t : Fin cfg1.N) :
    (iblk1 V c 0 t : Vec Ideal S2000x256 .f32) = rowBlock (t.val * 2000) (rows_le t) (xA V c) := by
  funext y
  show V c main_v19 (((cfg1.win 0).blk t).view.emb y) = V c main_v19 (ix2 ⟨t.val * 2000 + (y 0).val, _⟩ (y 1))
  obtain ⟨e0, e1, -⟩ := idx_facts t
  refine congrArg _ (funext fun a => Fin.ext ?_)
  match a with
  | ⟨0, _⟩ => show win1_0.index t (0 : Fin 2) * 2000 + 1 * (y 0).val = t.val * 2000 + (y 0).val; rw [e0, Nat.one_mul]
  | ⟨1, _⟩ => show win1_0.index t (1 : Fin 2) * 256 + 1 * (y 1).val = (y 1).val; rw [e1, Nat.zero_mul, Nat.zero_add, Nat.one_mul]

/-- Point `t`'s block of the neighbourhood means is rows 2000·t onwards of the array. -/
theorem blk_h (c : Dev nD) (t : Fin cfg1.N) :
    (iblk1 V c 1 t : Vec Ideal S2000x256 .f32) = rowBlock (t.val * 2000) (rows_le t) (hA V c) := by
  funext y
  show V c main_v38 (((cfg1.win 1).blk t).view.emb y) = V c main_v38 (ix2 ⟨t.val * 2000 + (y 0).val, _⟩ (y 1))
  obtain ⟨-, -, e0, e1, -⟩ := idx_facts t
  refine congrArg _ (funext fun a => Fin.ext ?_)
  match a with
  | ⟨0, _⟩ => show win1_1.index t (0 : Fin 2) * 2000 + 1 * (y 0).val = t.val * 2000 + (y 0).val; rw [e0, Nat.one_mul]
  | ⟨1, _⟩ => show win1_1.index t (1 : Fin 2) * 256 + 1 * (y 1).val = (y 1).val; rw [e1, Nat.zero_mul, Nat.zero_add, Nat.one_mul]

/-- Every point's block of the self weights is the whole matrix. -/
theorem blk_ws (c : Dev nD) (t : Fin cfg1.N) : (iblk1 V c 2 t : Vec Ideal S256x128 .f32) = wsA V c := by
  funext y
  show V c main_arg6 (((cfg1.win 2).blk t).view.emb y) = V c main_arg6 y
  obtain ⟨-, -, -, -, e0, e1, -⟩ := idx_facts t
  refine congrArg _ (funext fun a => Fin.ext ?_)
  match a with
  | ⟨0, _⟩ => show win1_2.index t (0 : Fin 2) * 256 + 1 * (y 0).val = (y 0).val; rw [e0, Nat.zero_mul, Nat.zero_add, Nat.one_mul]
  | ⟨1, _⟩ => show win1_2.index t (1 : Fin 2) * 128 + 1 * (y 1).val = (y 1).val; rw [e1, Nat.zero_mul, Nat.zero_add, Nat.one_mul]

/-- Every point's block of the neighbour weights is the whole matrix. -/
theorem blk_wn (c : Dev nD) (t : Fin cfg1.N) : (iblk1 V c 3 t : Vec Ideal S256x128 .f32) = wnA V c := by
  funext y
  show V c main_arg7 (((cfg1.win 3).blk t).view.emb y) = V c main_arg7 y
  obtain ⟨-, -, -, -, -, -, e0, e1, -⟩ := idx_facts t
  refine congrArg _ (funext fun a => Fin.ext ?_)
  match a with
  | ⟨0, _⟩ => show win1_3.index t (0 : Fin 2) * 256 + 1 * (y 0).val = (y 0).val; rw [e0, Nat.zero_mul, Nat.zero_add, Nat.one_mul]
  | ⟨1, _⟩ => show win1_3.index t (1 : Fin 2) * 128 + 1 * (y 1).val = (y 1).val; rw [e1, Nat.zero_mul, Nat.zero_add, Nat.one_mul]

/-- Every point's block of the bias is the whole vector. -/
theorem blk_b (c : Dev nD) (t : Fin cfg1.N) : (iblk1 V c 4 t : Vec Ideal S128 .f32) = bA V c := by
  funext y
  show V c main_arg8 (((cfg1.win 4).blk t).view.emb y) = V c main_arg8 y
  obtain ⟨-, -, -, -, -, -, -, -, e0, -⟩ := idx_facts t
  refine congrArg _ (funext fun a => Fin.ext ?_)
  match a with
  | ⟨0, _⟩ => show win1_4.index t (0 : Fin 1) * 128 + 1 * (y 0).val = (y 0).val; rw [e0, Nat.zero_mul, Nat.zero_add, Nat.one_mul]

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S128) hz1]
  rw [blk_x V c t, blk_h V c t, blk_ws V c t, blk_wn V c t, blk_b V c t]
  funext y
  obtain ⟨p, q, rfl⟩ : ∃ (p : Fin 2000) (q : Fin 128), y = ix2 p q := ⟨y 0, y 1, eq_ix2 y⟩
  show k1_pay1 (F := Ideal) (rowBlock (t.val * 2000) (rows_le t) (xA V c)) (rowBlock (t.val * 2000) (rows_le t) (hA V c))
      (wsA V c) (wnA V c) (bA V c) (ix2 p q) = G V c (((cfg1.win 5).blk t).view.emb (ix2 p q))
  rw [Cert.KernelIdeal.Payload.pay1_apply]
  have he : ((cfg1.win 5).blk t).view.emb (ix2 p q) = ix2 ⟨t.val * 2000 + p.val, by have := rows_le t; have := p.isLt; omega⟩ q := by
    obtain ⟨-, -, -, -, -, -, -, -, -, e0, e1⟩ := idx_facts t
    refine funext fun a => Fin.ext ?_
    match a with
    | ⟨0, _⟩ => show win1_5.index t (0 : Fin 2) * 2000 + 1 * p.val = t.val * 2000 + p.val; rw [e0, Nat.one_mul]
    | ⟨1, _⟩ => show win1_5.index t (1 : Fin 2) * 128 + 1 * q.val = q.val; rw [e1, Nat.zero_mul, Nat.zero_add, Nat.one_mul]
  rw [he]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Every row lies in some point's block: row `r` in point `r / 2000`'s. -/
theorem cover (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  let t : Fin cfg1.N := ⟨(i 0).val / 2000, by rw [show cfg1.N = 25 from N_1]; omega⟩
  refine ⟨t, flush1_5 t, ?_⟩
  rw [mem_blk]
  obtain ⟨-, -, -, -, -, -, -, -, -, e0, e1⟩ := idx_facts t
  have ht : t.val = (i 0).val / 2000 := rfl
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 128 ≤ (i 1).val ∧ (i 1).val < win1_5.index t (1 : Fin 2) * 128 + 128; rw [e1]; omega

/-- THE ARRAY after the region: the layer of the arrays the region found. -/
theorem final (c : Dev nD) : (dat1 V c).arrAt 5 cfg1.N = G V c :=
  (dat1 V c).arrAt_eq_of_cover 5 (G V c) (fun t _ => flushed_eq V c t) cover

end Cert.KernelIdeal.Region1

end
-- ==== Proof.KernelValue.lean ====
/-
  The kernel program's result as one function of its nine arguments. Between the launch and the return the buffers'
  contents pass through four boundaries: after the first stretch of host operations (which computes the features'
  neighbourhood mean), after the first layer's kernel (whose result array ends at the rectified layer of what it
  found), after the second stretch (the hidden features' neighbourhood mean, by the same chain of operations), and
  after the second layer's kernel. Read back through these boundaries, each array a kernel finds is an argument as
  launched, a neighbourhood mean, or the first kernel's result; so the returned array is the second layer over the
  rectified first, each with its neighbourhood mean. The mean's chain of host operations is carried as one function.
-/
import proofs.«118450_j71236327571567_1_alg».proof.Proof.Gen.KernelIdeal.Frame
import proofs.«118450_j71236327571567_1_alg».proof.Proof.KernelRegion0
import proofs.«118450_j71236327571567_1_alg».proof.Proof.KernelRegion1

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo Cert.RowLinear

/-- The neighbourhood mean of a feature array along the edges `src → dst`, as the kernel program's host operations
    spell it: negative source indices wrapped once, the source rows gathered, added onto the destination rows of a
    zero array, and divided by the larger of the in-degree (ones added onto the destinations) and one. -/
def aggK (x : Vec Ideal S50000x256 .f32) (src dst : IVec S800000 32) : Vec Ideal S50000x256 .f32 :=
  Host.divf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- The whole network as one function of the nine arguments. -/
def netK (x0 : Vec Ideal S50000x256 .f32) (x1 x2 : IVec S800000 32) (x3 x4 : Vec Ideal S256x256 .f32)
    (x5 : Vec Ideal S256 .f32) (x6 x7 : Vec Ideal S256x128 .f32) (x8 : Vec Ideal S128 .f32) : Vec Ideal S50000x128 .f32 :=
  lin (reluLin x0 (aggK x0 x1 x2) x3 x4 x5) (aggK (reluLin x0 (aggK x0 x1 x2) x3 x4 x5) x1 x2) x6 x7 x8

theorem lin_congr {R K N : ℕ} {x x' h h' : (⟨2, ![R, K]⟩ : Shape).Idx → EReal} {ws ws' wn wn' : (⟨2, ![K, N]⟩ : Shape).Idx → EReal}
    {b b' : (⟨1, ![N]⟩ : Shape).Idx → EReal} (e0 : x = x') (e1 : h = h') (e2 : ws = ws') (e3 : wn = wn') (e4 : b = b') :
    lin x h ws wn b = lin x' h' ws' wn' b' := by subst e0 e1 e2 e3 e4; rfl

theorem reluLin_congr {R K N : ℕ} {x x' h h' : (⟨2, ![R, K]⟩ : Shape).Idx → EReal} {ws ws' wn wn' : (⟨2, ![K, N]⟩ : Shape).Idx → EReal}
    {b b' : (⟨1, ![N]⟩ : Shape).Idx → EReal} (e0 : x = x') (e1 : h = h') (e2 : ws = ws') (e3 : wn = wn') (e4 : b = b') :
    reluLin x h ws wn b = reluLin x' h' ws' wn' b' := by subst e0 e1 e2 e3 e4; rfl

variable (m : (ℓ : Loc nD τ sig) → Buf (Elt Ideal) ℓ) (ρ : Dev nD → PrngReg)

/-! ## What the first stretch of host operations leaves -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]; after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]; after_results_simp <;> rfl

/-- The first kernel finds, as its second operand, the neighbourhood mean of the input features. -/
theorem W1_v18 (c : Dev nD) : W1 m ρ c (Proc.devRef .tc main_v18)
    = aggK (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]; after_results_simp <;> rfl

/-! ## What the first kernel leaves: the hidden features -/

/-- The hidden features, as a function of the arguments. -/
abbrev hidden (c : Dev nD) : Vec Ideal S50000x256 .f32 :=
  reluLin (m ((c : Thread nD τ).loc main_arg0))
    (aggK (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))

theorem W2_v19 (c : Dev nD) : W2 m ρ c (Proc.devRef .tc main_v19) = hidden m c :=
  (W2_arr m ρ c 5).trans ((Cert.KernelIdeal.Region0.final (V1 m ρ) c).trans
    (reluLin_congr (W1_arg0 m ρ c) (W1_v18 m ρ c) (W1_arg3 m ρ c) (W1_arg4 m ρ c) (W1_arg5 m ρ c)))

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## What the second stretch of host operations leaves -/

theorem W3_v19 (c : Dev nD) : W3 m ρ c (Proc.devRef .tc main_v19) = hidden m c := by
  have h : W3 m ρ c (Proc.devRef .tc main_v19) = W2 m ρ c (Proc.devRef .tc main_v19) := by
    show StableHlo.after hostOps1 (W2 m ρ c) (Proc.devRef .tc main_v19) = _
    dsimp only [hostOps1]; after_results_simp <;> rfl
  exact h.trans (W2_v19 m ρ c)
theorem W3_arg6 (c : Dev nD) : W3 m ρ c (Proc.devRef .tc main_arg6) = m ((c : Thread nD τ).loc main_arg6) := by
  have h : W3 m ρ c (Proc.devRef .tc main_arg6) = W2 m ρ c (Proc.devRef .tc main_arg6) := by
    show StableHlo.after hostOps1 (W2 m ρ c) (Proc.devRef .tc main_arg6) = _
    dsimp only [hostOps1]; after_results_simp <;> rfl
  exact h.trans (W2_arg6 m ρ c)
theorem W3_arg7 (c : Dev nD) : W3 m ρ c (Proc.devRef .tc main_arg7) = m ((c : Thread nD τ).loc main_arg7) := by
  have h : W3 m ρ c (Proc.devRef .tc main_arg7) = W2 m ρ c (Proc.devRef .tc main_arg7) := by
    show StableHlo.after hostOps1 (W2 m ρ c) (Proc.devRef .tc main_arg7) = _
    dsimp only [hostOps1]; after_results_simp <;> rfl
  exact h.trans (W2_arg7 m ρ c)
theorem W3_arg8 (c : Dev nD) : W3 m ρ c (Proc.devRef .tc main_arg8) = m ((c : Thread nD τ).loc main_arg8) := by
  have h : W3 m ρ c (Proc.devRef .tc main_arg8) = W2 m ρ c (Proc.devRef .tc main_arg8) := by
    show StableHlo.after hostOps1 (W2 m ρ c) (Proc.devRef .tc main_arg8) = _
    dsimp only [hostOps1]; after_results_simp <;> rfl
  exact h.trans (W2_arg8 m ρ c)

/-- The second kernel finds, as its second operand, the neighbourhood mean of the hidden features. -/
theorem W3_v38 (c : Dev nD) : W3 m ρ c (Proc.devRef .tc main_v38)
    = aggK (hidden m c) (m ((c : Thread nD τ).loc main_arg1)) (m ((c : Thread nD τ).loc main_arg2)) := by
  have h : W3 m ρ c (Proc.devRef .tc main_v38)
      = aggK (W2 m ρ c (Proc.devRef .tc main_v19)) (W2 m ρ c (Proc.devRef .tc main_arg1)) (W2 m ρ c (Proc.devRef .tc main_arg2)) := by
    show StableHlo.after hostOps1 (W2 m ρ c) (Proc.devRef .tc main_v38) = _
    dsimp only [hostOps1]; after_results_simp <;> rfl
  rw [h, W2_v19, W2_arg1, W2_arg2]

/-! ## The returned array -/

/-- After the second kernel the result array holds the network of the arguments as launched. -/
theorem value (c : Dev nD) : W4 m ρ c (Proc.devRef .tc main_v39)
    = netK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 5).trans ((Cert.KernelIdeal.Region1.final (V3 m ρ) c).trans
    (lin_congr (W3_v19 m ρ c) (W3_v38 m ρ c) (W3_arg6 m ρ c) (W3_arg7 m ρ c) (W3_arg8 m ρ c)))

end Cert.KernelIdeal.KValue

end
-- ==== Proof.RefValue.lean ====
/-
  The reference, read as two dense layers over one neighbourhood mean. Its run ends with the result at a composed term
  of the arguments; read one operation at a time, that term is the second layer (no rectifier) of the hidden features
  and of their neighbourhood mean, the hidden features being the rectified first layer of the input features and of
  THEIR neighbourhood mean. The mean (gather the source rows, add them onto the destination rows, divide by the larger
  of the in-degree and one) is the same chain of host operations both times; it is carried as one function and never
  opened. A host matrix product read at (r, j) is the sum over k of row r against column j; the bias row repeated along
  the rows reads the bias at the column.
-/
import proofs.«118450_j71236327571567_1_alg».proof.Proof.Gen.ReferenceIdeal.Run
import proofs.«118450_j71236327571567_1_alg».proof.Proof.Gen.ReferenceIdeal.Read
import proofs.«118450_j71236327571567_1_alg».proof.Proof.RowLinear

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem Cert.RowLinear

/-- The neighbourhood mean of a feature array along the edges `src → dst`: the reference's chain of host operations
    from the features and the two edge arrays to the mean array, as one function. -/
abbrev agg (x : Vec Ideal S50000x256 .f32) (src dst : IVec S800000 32) : Vec Ideal S50000x256 .f32 :=
  val_main_v18 (F := Ideal) x src dst

/-- The hidden features: the rectified first layer of the features and their neighbourhood mean. -/
theorem hidden_eq (x0 : Vec Ideal S50000x256 .f32) (x1 x2 : IVec S800000 32) (x3 x4 : Vec Ideal S256x256 .f32)
    (x5 : Vec Ideal S256 .f32) :
    val_main_v25 (F := Ideal) x0 x1 x2 x3 x4 x5 = reluLin x0 (agg x0 x1 x2) x3 x4 x5 := by
  funext i
  obtain ⟨r, j, rfl⟩ : ∃ (r : Fin 50000) (j : Fin 256), i = ix2 r j := ⟨i 0, i 1, eq_ix2 i⟩
  have e1 := dotGeneral_row_apply (φ₁ := .f32) (φ₂ := .f32) dot_S50000x256_S256x256_S50000x256_1_0_0_1_n_n rfl rfl rfl rfl rfl rfl none x0 x3 r j
  have e2 := dotGeneral_row_apply (φ₁ := .f32) (φ₂ := .f32) dot_S50000x256_S256x256_S50000x256_1_0_0_1_n_n rfl rfl rfl rfl rfl rfl none
    (agg x0 x1 x2) x4 r j
  have e3 := hostRowSplat_apply (R := 50000) x5 bcast_S256_S1x256_1 bcast_S1x256_S50000x256_0_1 r j
  show max ((_ + _) + _) _ = _
  exact congrArg₂ max (congrArg₂ (· + ·) (congrArg₂ (· + ·) e1 e2) e3) rfl

/-- The mean taken the second time is the same function, of the hidden features. -/
theorem agg_hidden (x0 : Vec Ideal S50000x256 .f32) (x1 x2 : IVec S800000 32) (x3 x4 : Vec Ideal S256x256 .f32)
    (x5 : Vec Ideal S256 .f32) :
    val_main_v44 (F := Ideal) x0 x1 x2 x3 x4 x5 = agg (val_main_v25 (F := Ideal) x0 x1 x2 x3 x4 x5) x1 x2 := rfl

/-- The result: the second layer of the hidden features and their neighbourhood mean. -/
theorem out_eq (x0 : Vec Ideal S50000x256 .f32) (x1 x2 : IVec S800000 32) (x3 x4 : Vec Ideal S256x256 .f32)
    (x5 : Vec Ideal S256 .f32) (x6 x7 : Vec Ideal S256x128 .f32) (x8 : Vec Ideal S128 .f32) :
    val_main_v50 (F := Ideal) x0 x1 x2 x3 x4 x5 x6 x7 x8
      = lin (val_main_v25 (F := Ideal) x0 x1 x2 x3 x4 x5) (val_main_v44 (F := Ideal) x0 x1 x2 x3 x4 x5) x6 x7 x8 := by
  funext i
  obtain ⟨r, j, rfl⟩ : ∃ (r : Fin 50000) (j : Fin 128), i = ix2 r j := ⟨i 0, i 1, eq_ix2 i⟩
  have e1 := dotGeneral_row_apply (φ₁ := .f32) (φ₂ := .f32) dot_S50000x256_S256x128_S50000x128_1_0_0_1_n_n rfl rfl rfl rfl rfl rfl none
    (val_main_v25 (F := Ideal) x0 x1 x2 x3 x4 x5) x6 r j
  have e2 := dotGeneral_row_apply (φ₁ := .f32) (φ₂ := .f32) dot_S50000x256_S256x128_S50000x128_1_0_0_1_n_n rfl rfl rfl rfl rfl rfl none
    (val_main_v44 (F := Ideal) x0 x1 x2 x3 x4 x5) x7 r j
  have e3 := hostRowSplat_apply (R := 50000) x8 bcast_S128_S1x128_1 bcast_S1x128_S50000x128_0_1 r j
  show (_ + _) + _ = _
  exact congrArg₂ (· + ·) (congrArg₂ (· + ·) e1 e2) e3

/-- The whole network as one function of the nine arguments: the second layer over the rectified first, each with
    its neighbourhood mean. -/
def net (x0 : Vec Ideal S50000x256 .f32) (x1 x2 : IVec S800000 32) (x3 x4 : Vec Ideal S256x256 .f32)
    (x5 : Vec Ideal S256 .f32) (x6 x7 : Vec Ideal S256x128 .f32) (x8 : Vec Ideal S128 .f32) : Vec Ideal S50000x128 .f32 :=
  lin (reluLin x0 (agg x0 x1 x2) x3 x4 x5) (agg (reluLin x0 (agg x0 x1 x2) x3 x4 x5) x1 x2) x6 x7 x8

/-- The reference run's result term is the network of its arguments. -/
theorem result_eq (m : (ℓ : Loc nD τ sig) → Buf (Elt Ideal) ℓ) (c : Dev nD) :
    Cert.ReferenceIdeal.Value.res_main_v50 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v50_eq, out_eq, agg_hidden, hidden_eq]
  rfl

end Cert.ReferenceIdeal.RefValue

end
-- ==== Proof.Bridge.lean ====
/-
  The two programs compute one function. Both spell the neighbourhood mean by the same chain of host operations
  (the same gather and scatter dimension records, the same zero and one words, the same wrap of negative indices by
  50000), so the kernel program's mean and the reference's are one function; and over it both are the second layer
  of the rectified first layer, the layers already one function of whole arrays on each side.
-/
import proofs.«118450_j71236327571567_1_alg».proof.Proof.KernelValue
import proofs.«118450_j71236327571567_1_alg».proof.Proof.RefValue

noncomputable section

namespace Cert.Bridge

open Idealize.ShloMosaic

/-- The kernel program's neighbourhood mean is the reference's: the same operations on the same operands. -/
theorem agg_eq (x : Vec Ideal Cert.KernelIdeal.S50000x256 .f32) (src dst : IVec Cert.KernelIdeal.S800000 32) :
    Cert.KernelIdeal.KValue.aggK x src dst = Cert.ReferenceIdeal.RefValue.agg x src dst := rfl

/-- The kernel program's network is the reference's. -/
theorem net_eq (x0 : Vec Ideal Cert.KernelIdeal.S50000x256 .f32) (x1 x2 : IVec Cert.KernelIdeal.S800000 32)
    (x3 x4 : Vec Ideal Cert.KernelIdeal.S256x256 .f32) (x5 : Vec Ideal Cert.KernelIdeal.S256 .f32)
    (x6 x7 : Vec Ideal Cert.KernelIdeal.S256x128 .f32) (x8 : Vec Ideal Cert.KernelIdeal.S128 .f32) :
    Cert.KernelIdeal.KValue.netK x0 x1 x2 x3 x4 x5 x6 x7 x8 = Cert.ReferenceIdeal.RefValue.net x0 x1 x2 x3 x4 x5 x6 x7 x8 := by
  unfold Cert.KernelIdeal.KValue.netK Cert.ReferenceIdeal.RefValue.net
  rw [agg_eq, agg_eq]

end Cert.Bridge

end
-- ==== Proof.lean ====
/-
  The certificate of a two-layer mean-aggregating graph convolution: each layer is (x·Ws + mean·Wn) + b, the first one
  rectified, where `mean` is the average of a node's in-neighbours' features (gathered along the edges, added onto the
  destination rows and divided by the larger of the in-degree and one). The kernel program computes the means on the
  host and each dense layer in a kernel over blocks of 2000 rows; the reference computes everything on the host.

  The three programs run: the two kernel programs by their generated frames, the reference by its generated run.
  The idealization rewrote nothing, so it preserves trivially. At the ideal instance both results are one function of
  the nine arguments: the kernel's result array is read off the frame run, block by block, as the layer function of
  whole arrays (a matrix product into a zero accumulator is the sum over the contracted axis, row by row; the narrowing
  casts are the identity); the reference's composed term is read one operation at a time to the same layer function;
  and the neighbourhood mean, spelt by the same host operations in both, is one function that is never opened.
-/
import proofs.«118450_j71236327571567_1_alg».proof.Defs
import proofs.«118450_j71236327571567_1_alg».proof.Proof.Gen.Kernel
import proofs.«118450_j71236327571567_1_alg».proof.Proof.Gen.Kernel.Skeleton
import proofs.«118450_j71236327571567_1_alg».proof.Proof.Gen.Kernel.Launch
import proofs.«118450_j71236327571567_1_alg».proof.Proof.Gen.Kernel.Points
import proofs.«118450_j71236327571567_1_alg».proof.Proof.Gen.Kernel.Frame
import proofs.«118450_j71236327571567_1_alg».proof.Proof.Gen.KernelIdeal
import proofs.«118450_j71236327571567_1_alg».proof.Proof.Gen.KernelIdeal.Skeleton
import proofs.«118450_j71236327571567_1_alg».proof.Proof.Gen.KernelIdeal.Launch
import proofs.«118450_j71236327571567_1_alg».proof.Proof.Gen.KernelIdeal.Points
import proofs.«118450_j71236327571567_1_alg».proof.Proof.Gen.KernelIdeal.Frame
import proofs.«118450_j71236327571567_1_alg».proof.Proof.Gen.ReferenceIdeal
import proofs.«118450_j71236327571567_1_alg».proof.Proof.Gen.ReferenceIdeal.Run
import proofs.«118450_j71236327571567_1_alg».proof.Proof.Gen.Pre_finite_inputs
import proofs.«118450_j71236327571567_1_alg».proof.Proof.KernelRun
import proofs.«118450_j71236327571567_1_alg».proof.Proof.KernelValue
import proofs.«118450_j71236327571567_1_alg».proof.Proof.RefValue
import proofs.«118450_j71236327571567_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.KValue.netK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.value m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.result_eq, h0, h1, h2, h3, h4, h5, h6, h7, h8]
    exact (Cert.Bridge.net_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
